-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩
abbrev S1x600000 : Shape := ⟨2, ![1, 600000]⟩
abbrev S600000 : Shape := ⟨1, ![600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part3 {F : FTy → Type} [FloatOps F] (main_arg1 : IVec S2x600000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : IVec S1x600000 32 := (extractStridedSlice S1x600000 ![0, 0] · slices_S2x600000_S1x600000_0_0) main_arg1
  let main_v55 : IVec S600000 32 := shapeCast S600000 main_v54 shapeCasts_S1x600000_S600000
  let main_c_20 : IVec S_ 32 := constantI S_ 32 4294867296#32
  let main_v56 : IVec S600000 32 := broadcastInDim S600000 ![] bcast_S_S600000 main_c_20
  let main_v57 : IVec S600000 1 := cmpi .sge main_v55 main_v56
  let main_v58 : IVec S1x600000 32 := (extractStridedSlice S1x600000 ![0, 0] · slices_S2x600000_S1x600000_0_0) main_arg1
  let main_v59 : IVec S600000 32 := shapeCast S600000 main_v58 shapeCasts_S1x600000_S600000
  let main_c_21 : IVec S_ 32 := constantI S_ 32 100000#32
  let main_v60 : IVec S600000 32 := broadcastInDim S600000 ![] bcast_S_S600000 main_c_21
  let main_v61 : IVec S600000 1 := cmpi .slt main_v59 main_v60
  let main_v62 : IVec S600000 1 := andi main_v57 main_v61
  let main_c_22 : IVec S_ 1 := constantI S_ 1 1#1
  let main_v63 : IVec S_ 1 := (fun x v => Host.reduce IntOp.andi x v reducesTo_S600000_S_d0 h_S_) main_v62 main_c_22
  let main_v64 : IVec S_ 1 := andi main_v53 main_v63
  main_v64

def fn_part2 {F : FTy → Type} [FloatOps F] (main_arg1 : IVec S2x600000 32) (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_v48 main_v49 main_v50

def fn_part1 {F : FTy → Type} [FloatOps F] (main_arg1 : IVec S2x600000 32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S100000 : Shape := ⟨1, ![100000]⟩
abbrev S100000x1 : Shape := ⟨2, ![100000, 1]⟩
abbrev S5000 : Shape := ⟨1, ![5000]⟩
abbrev S5000x1 : Shape := ⟨2, ![5000, 1]⟩

abbrev nBuf : Space → Nat
  | .hbm => 64
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S100000x128, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S1, .i32⟩
  | .hbm, ⟨30, _⟩ => ⟨S_, .i32⟩
  | .hbm, ⟨31, _⟩ => ⟨S600000x1, .i32⟩
  | .hbm, ⟨32, _⟩ => ⟨S600000x1, .i1⟩
  | .hbm, ⟨33, _⟩ => ⟨S1x1, .i32⟩
  | .hbm, ⟨34, _⟩ => ⟨S600000x1, .i32⟩
  | .hbm, ⟨35, _⟩ => ⟨S600000x1, .i1⟩
  | .hbm, ⟨36, _⟩ => ⟨S600000x1, .i1⟩
  | .hbm, ⟨37, _⟩ => ⟨S_, .i1⟩
  | .hbm, ⟨38, _⟩ => ⟨S600000, .i1⟩
  | .hbm, ⟨39, _⟩ => ⟨S600000x128, .f32⟩
  | .hbm, ⟨40, _⟩ => ⟨S600000x128, .i1⟩
  | .hbm, ⟨41, _⟩ => ⟨S_, .f32⟩
  | .hbm, ⟨42, _⟩ => ⟨S600000x128, .f32⟩
  | .hbm, ⟨43, _⟩ => ⟨S600000x128, .f32⟩
  | .hbm, ⟨44, _⟩ => ⟨S_, .f32⟩
  | .hbm, ⟨45, _⟩ => ⟨S100000x128, .f32⟩
  | .hbm, ⟨46, _⟩ => ⟨S600000x1, .i32⟩
  | .hbm, ⟨47, _⟩ => ⟨S100000x128, .f32⟩
  | .hbm, ⟨48, _⟩ => ⟨S_, .f32⟩
  | .hbm, ⟨49, _⟩ => ⟨S600000, .f32⟩
  | .hbm, ⟨50, _⟩ => ⟨S_, .f32⟩
  | .hbm, ⟨51, _⟩ => ⟨S100000, .f32⟩
  | .hbm, ⟨52, _⟩ => ⟨S600000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v9 : Ref sig .tc := ⟨.hbm, 43, rfl⟩
abbrev main_cst : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_cst_0 : Ref sig .tc := ⟨.hbm, 48, rfl⟩
abbrev main_v13 : Ref sig .tc := ⟨.hbm, 49, rfl⟩
abbrev main_cst_1 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_cst_2 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S5000 : S5000x128.Reduces [1] S5000
  shapeCasts_S5000_S5000x1 : S5000.ShapeCasts S5000x1
  broadcasts_S5000x1_S5000x128 : S5000x1.Broadcasts S5000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S_, .f32⟩
  | .hbm, ⟨30, _⟩ => ⟨S600000, .f32⟩
  | .hbm, ⟨31, _⟩ => ⟨S_, .f32⟩
  | .hbm, ⟨32, _⟩ => ⟨S100000, .f32⟩
  | .hbm, ⟨33, _⟩ => ⟨S600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S128x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S128x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000, .f32⟩
  | .hbm, ⟨52, _⟩ => ⟨S100000x1, .f32⟩
  | .hbm, ⟨53, _⟩ => ⟨S100000x1, .f32⟩
  | .hbm, ⟨54, _⟩ => ⟨S_, .f32⟩
  | .hbm, ⟨55, _⟩ => ⟨S100000x1, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x128, .f32⟩
  | .hbm, ⟨87, _⟩ => ⟨S_, .f32⟩
  | .hbm, ⟨88, _⟩ => ⟨S100000x128, .f32⟩
  | .hbm, ⟨89, _⟩ => ⟨S600000x1, .i32⟩
  | .hbm, ⟨90, _⟩ => ⟨S100000x128, .f32⟩
  | .hbm, ⟨91, _⟩ => ⟨S_, .f32⟩
  | .hbm, ⟨92, _⟩ => ⟨S600000, .f32⟩
  | .hbm, ⟨93, _⟩ => ⟨S_, .f32⟩
  | .hbm, ⟨94, _⟩ => ⟨S100000, .f32⟩
  | .hbm, ⟨95, _⟩ => ⟨S600000x1, .i32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x128, .f32⟩
  | .hbm, ⟨102, _⟩ => ⟨S100000x128, .f32⟩
  | .hbm, ⟨103, _⟩ => ⟨S128x128, .f32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S128x128, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S_, .f32⟩
  | .hbm, ⟨113, _⟩ => ⟨S100000, .f32⟩
  | .hbm, ⟨114, _⟩ => ⟨S100000x1, .f32⟩
  | .hbm, ⟨115, _⟩ => ⟨S100000x1, .f32⟩
  | .hbm, ⟨116, _⟩ => ⟨S_, .f32⟩
  | .hbm, ⟨117, _⟩ => ⟨S100000x1, .f32⟩
  | .hbm, ⟨118, _⟩ => ⟨S100000x1, .f32⟩
  | .hbm, ⟨119, _⟩ => ⟨S100000x128, .f32⟩
  | .hbm, ⟨120, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_v0 : Ref sig .tc := ⟨.hbm, 49, rfl⟩
abbrev main_call0_cst : Ref sig .tc := ⟨.hbm, 50, rfl⟩
abbrev main_call0_v1 : Ref sig .tc := ⟨.hbm, 51, rfl⟩
abbrev main_call0_v2 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call1_cst : Ref sig .tc := ⟨.hbm, 59, rfl⟩
abbrev main_call1_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_6 : Ref sig .tc := ⟨.hbm, 78, rfl⟩
abbrev main_v52 : Ref sig .tc := ⟨.hbm, 79, rfl⟩
abbrev main_v53 : Ref sig .tc := ⟨.hbm, 80, rfl⟩
abbrev main_c_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_call2_v0 : Ref sig .tc := ⟨.hbm, 111, rfl⟩
abbrev main_call2_cst : Ref sig .tc := ⟨.hbm, 112, rfl⟩
abbrev main_call2_v1 : Ref sig .tc := ⟨.hbm, 113, rfl⟩
abbrev main_call2_v2 : Ref sig .tc := ⟨.hbm, 114, rfl⟩
abbrev main_v79 : Ref sig .tc := ⟨.hbm, 115, rfl⟩
abbrev main_cst_12 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S_S128 : S_.BroadcastsInDim S128 (![] : Fin 0 → Fin S128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The network's two dense stages as functions of whole arrays, read entry by entry over the extended reals.

  Stage one is the evaluation-mode batch normalisation of the rectified input: for node r and feature j,
      ((max(x[r,j], 0) − mean[j]) · (var[j] + ε)^(−1/2)) · γ[j] + β[j].
  Stage two takes the normalised features h and their neighbourhood means a (both [nodes, features]) and
  two square weight matrices already transposed, and forms the row
      o[r,·] = (∑ₖ a[r,k]·Wl[k,·] + b) + ∑ₖ h[r,k]·Wr[k,·],
  then divides it by its Euclidean length, the length floored at a small positive constant:
      o[r,j] / max(√(∑_q o[r,q]²), ε').
  Both constants are kept as the binary words the programs carry; the same word stands on both sides of every
  comparison, so neither is ever evaluated.
-/
import Idealize.ShloMosaic.PureOps.Ideal
import Idealize.ShloMosaic.PureOps.Ideal.Laws
import Idealize.ShloMosaic.Lib.ValueIdx

noncomputable section

namespace Cert.SageSpec

open Idealize.ShloMosaic Idealize.ShloMosaic.ValueIdx
open scoped BigOperators

/-- Node features: 100000 nodes, 128 features each. -/
abbrev Nodes : Shape := ⟨2, ![100000, 128]⟩
/-- One value per feature. -/
abbrev Feat : Shape := ⟨1, ![128]⟩
/-- A square weight matrix over the features. -/
abbrev Sq : Shape := ⟨2, ![128, 128]⟩

/-- The variance offset of the normalisation, as the word the programs carry. -/
def epsBn : EReal := Ideal.ofBits .f32 0x3727C5AC#32
/-- The floor under a row's length, as the word the programs carry. -/
def epsNorm : EReal := Ideal.ofBits .f32 0x2B8CBCCC#32

/-- Stage one at node `r`, feature `j`. -/
def bnRelu (x : Nodes.Idx → EReal) (mean var gamma beta : Feat.Idx → EReal) (r : Fin 100000) (j : Fin 128) : EReal :=
  (max (x (ix2 r j)) 0 - mean (ix1 j)) * Ideal.rsqrt (var (ix1 j) + epsBn) * gamma (ix1 j) + beta (ix1 j)

/-- Stage one as a whole array. -/
def bnArr (x : Nodes.Idx → EReal) (mean var gamma beta : Feat.Idx → EReal) : Nodes.Idx → EReal :=
  fun i => bnRelu x mean var gamma beta (i 0) (i 1)

/-- The unnormalised output row of stage two at node `r`, feature `j`. -/
def lin (h a : Nodes.Idx → EReal) (wl : Sq.Idx → EReal) (b : Feat.Idx → EReal) (wr : Sq.Idx → EReal)
    (r : Fin 100000) (j : Fin 128) : EReal :=
  (∑ k : Fin 128, a (ix2 r k) * wl (ix2 k j)) + b (ix1 j) + ∑ k : Fin 128, h (ix2 r k) * wr (ix2 k j)

/-- Stage two at node `r`, feature `j`: the row entry over the row's floored length. -/
def sage (h a : Nodes.Idx → EReal) (wl : Sq.Idx → EReal) (b : Feat.Idx → EReal) (wr : Sq.Idx → EReal)
    (r : Fin 100000) (j : Fin 128) : EReal :=
  Ideal.div (lin h a wl b wr r j)
    (max (Ideal.sqrt (∑ q : Fin 128, lin h a wl b wr r q * lin h a wl b wr r q)) epsNorm)

/-- Stage two as a whole array. -/
def sageArr (h a : Nodes.Idx → EReal) (wl : Sq.Idx → EReal) (b : Feat.Idx → EReal) (wr : Sq.Idx → EReal) :
    Nodes.Idx → EReal :=
  fun i => sage h a wl b wr (i 0) (i 1)

theorem bnArr_apply (x : Nodes.Idx → EReal) (mean var gamma beta : Feat.Idx → EReal) (r : Fin 100000) (j : Fin 128) :
    bnArr x mean var gamma beta (ix2 r j) = bnRelu x mean var gamma beta r j := rfl

theorem sageArr_apply (h a : Nodes.Idx → EReal) (wl : Sq.Idx → EReal) (b : Feat.Idx → EReal) (wr : Sq.Idx → EReal)
    (r : Fin 100000) (j : Fin 128) : sageArr h a wl b wr (ix2 r j) = sage h a wl b wr r j := rfl

end Cert.SageSpec

end
-- ==== Proof.Neighbours.lean ====
/-
  The neighbourhood mean: for every node, the sum of the features of the sources of the edges that end at
  it, over the number of those edges (at least one).  Both programs compute it on the host with the same
  operations, except for how a row is fetched by its source index:

  * both first wrap a negative index s to s + 100000;
  * the reference then fetches the row the wrapped index names, the index clamped into 0 … 99999;
  * the kernel's program fetches the same row and then keeps it only where the wrapped index already lies in
    0 … 99999, putting a fixed filler row elsewhere.

  When every source index lies in −100000 … 99999 the wrapped index lies in 0 … 99999, the kernel's range test
  holds on every edge, and the two fetches give the same rows; the rest of the chain is the same text.
  The operations are written over the kernel program's vocabulary.
-/
import proofs.«404688_j43593918054550_1_alg».proof.Defs
import proofs.«404688_j43593918054550_1_alg».proof.Proof.Gen.KernelIdeal
import proofs.«404688_j43593918054550_1_alg».proof.Proof.Gen.Pre_finite_inputs
import Idealize.ShloMosaic.Lib.ValueIdx
import Idealize.ShloMosaic.Lib.ReduceAll

noncomputable section

namespace Cert.Neighbours

open Cert.KernelIdeal Cert.KernelIdeal.Facts₀ Cert.KernelIdeal.Facts Idealize.ShloMosaic Idealize.ShloMosaic.ValueIdx

variable {F : FTy → Type} [FloatOps F]

/-- The edges' source indices: row 0 of the edge list. -/
def src (e : IVec S2x600000 32) : IVec S600000 32 :=
  shapeCast S600000 (extractStridedSlice S1x600000 ![0, 0] e slices_S2x600000_S1x600000_0_0) shapeCasts_S1x600000_S600000

/-- The edges' target indices: row 1 of the edge list. -/
def dst (e : IVec S2x600000 32) : IVec S600000 32 :=
  shapeCast S600000 (extractStridedSlice S1x600000 ![1, 0] e slices_S2x600000_S1x600000_1_0) shapeCasts_S1x600000_S600000

/-- A source index with a negative value moved up by the number of nodes. -/
def wrapped (e : IVec S2x600000 32) : IVec S600000 32 :=
  select (cmpi .slt (src e) (broadcastInDim S600000 ![] bcast_S_S600000 (constantI S_ 32 0#32)))
    (addi (src e) (broadcastInDim S600000 ![] bcast_S_S600000 (constantI S_ 32 100000#32))) (src e)

/-- The wrapped indices as a column of start indices. -/
def startIdx (e : IVec S2x600000 32) : IVec S600000x1 32 :=
  broadcastInDim S600000x1 ![0] bcast_S600000_S600000x1_0 (wrapped e)

/-- The kernel program's range test of a wrapped index: 0 ≤ w ≤ 99999, per edge. -/
def inRange (e : IVec S2x600000 32) : IVec S600000 1 :=
  Host.reduce IntOp.andi
    (andi (cmpi .sge (startIdx e) (broadcastInDim S600000x1 ![] bcast_S_S600000x1 (constantI S_ 32 0#32)))
      (cmpi .sle (startIdx e) (broadcastInDim S600000x1 ![0, 1] bcast_S1x1_S600000x1_0_1
        (broadcastInDim S1x1 ![1] bcast_S1_S1x1_1 (constantI S1 32 99999#32)))))
    (constantI S_ 1 1#1) reducesTo_S600000x1_S600000_d1 h_S_

/-- The rows the wrapped indices name (an index outside the table clamped into it). -/
def rows (h : FVec F S100000x128 .f32) (e : IVec S2x600000 32) : FVec F S600000x128 .f32 :=
  Host.gather gather_S100000x128_S600000x1_S600000x128_1_0_n_n_0_1_1128 h (startIdx e)

/-- The kernel program's fetch: those rows where the range test holds, a filler row elsewhere. -/
def rowsGuarded (h : FVec F S100000x128 .f32) (e : IVec S2x600000 32) : FVec F S600000x128 .f32 :=
  select (broadcastInDim S600000x128 ![0] bcast_S600000_S600000x128_0 (inRange e)) (rows h e)
    (broadcastInDim S600000x128 ![] bcast_S_S600000x128 (constant S_ .f32 0x7FC00000#32))

/-- The number of edges ending at each node, at least one, repeated along the features. -/
def degree (e : IVec S2x600000 32) : FVec F S100000x128 .f32 :=
  broadcastInDim S100000x128 ![0, 1] bcast_S100000x1_S100000x128_0_1
    (broadcastInDim S100000x1 ![0] bcast_S100000_S100000x1_0
      (maximumf
        (Host.scatterAdd scatter_S100000_S600000x1_S600000_n_0_0_1
          (broadcastInDim S100000 ![] bcast_S_S100000 (constant S_ .f32 0x00000000#32))
          (broadcastInDim S600000x1 ![0] bcast_S600000_S600000x1_0 (dst e))
          (broadcastInDim S600000 ![] bcast_S_S600000 (constant S_ .f32 0x3F800000#32)))
        (broadcastInDim S100000 ![] bcast_S_S100000 (constant S_ .f32 0x3F800000#32))))

/-- The mean over each node's incoming edges of the fetched rows `u` (one row per edge). -/
def meanOf (u : FVec F S600000x128 .f32) (e : IVec S2x600000 32) : FVec F S100000x128 .f32 :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 (dst e)) u)
    (degree e)

/-- Every source index lies in −100000 … 99999 (as a signed word): the range in which an index, wrapped, names a
    row of the table. -/
def SrcInRange (e : IVec S2x600000 32) : Prop :=
  ∀ i : S600000.Idx, (-100000 : Int) ≤ (src e i).toInt ∧ (src e i).toInt < 100000

/-- A left fold by the bitwise and over one-bit words that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact foldl_andi_one f l _ (IntOp.andi_eq_one.2 ⟨h, hl a List.mem_cons_self⟩)
      (fun n hn => hl n (List.mem_cons_of_mem _ hn))

/-- The word law of the wrap: a signed word s with −100000 ≤ s < 100000, moved up by 100000 when negative (the
    sum stays far inside the signed range, so the word addition is the integer one), lies in 0 … 99999. -/
theorem wrap_word (s : BitVec 32) (h1 : (-100000 : Int) ≤ s.toInt) (h2 : s.toInt < 100000) :
    IntOp.andi (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  have z : (0#32 : BitVec 32).toInt = 0 := by decide
  have n : (99999#32 : BitVec 32).toInt = 99999 := by decide
  have k : (100000#32 : BitVec 32).toInt = 100000 := by decide
  rw [IntOp.andi_eq_one, IntOp.cmpi_sge, IntOp.cmpi_sle, z, n]
  by_cases hs : s.toInt < 0
  · have hc : IntOp.cmpi .slt s 0#32 = 1#1 := IntOp.cmpi_slt.2 (by rw [z]; exact hs)
    have ha : (IntOp.addi s 100000#32).toInt = s.toInt + 100000 := by
      show (s + 100000#32).toInt = _
      rw [BitVec.toInt_add, k]
      exact Int.bmod_eq_of_le_mul_two (by omega) (by omega)
    rw [hc, select_one, ha]
    omega
  · have hc : IntOp.cmpi .slt s 0#32 = 0#1 :=
      eq_zero_of_ne_one fun h => hs (by have := IntOp.cmpi_slt.1 h; rwa [z] at this)
    rw [hc, select_zero]
    omega

/-- With every source index in range the kernel program's range test holds on every edge. -/
theorem inRange_of_src (e : IVec S2x600000 32) (he : SrcInRange e) (i : S600000.Idx) : inRange e i = 1#1 := by
  unfold inRange
  rw [Host.reduce_eq_foldl]
  refine foldl_andi_one _ _ _ rfl fun k _ => ?_
  -- the column of start indices, read anywhere, is the wrapped index of some edge
  obtain ⟨j, hj⟩ : ∃ j : S600000.Idx, startIdx e k = wrapped e j := ⟨_, rfl⟩
  show IntOp.andi (IntOp.cmpi .sge (startIdx e k) 0#32) (IntOp.cmpi .sle (startIdx e k) 99999#32) = 1#1
  rw [hj]
  exact wrap_word (src e j) (he j).1 (he j).2

/-- … so its guarded fetch keeps every row: it is the plain fetch. -/
theorem rowsGuarded_eq_rows (h : FVec F S100000x128 .f32) (e : IVec S2x600000 32) (he : SrcInRange e) :
    rowsGuarded h e = rows h e := by
  funext j
  unfold rowsGuarded
  rw [select_apply]
  -- the condition, a broadcast of the range test along the features, is the test of some edge
  have hc : broadcastInDim S600000x128 ![0] bcast_S600000_S600000x128_0 (inRange e) j = 1#1 := by
    unfold broadcastInDim
    exact inRange_of_src e he _
  rw [hc, select_one]

/-- The precondition's last conjunct, read: on every device the edge list's source indices are in range. -/
theorem srcInRange_of_pre (m : (ℓ : Loc nD τ sig) → Buf (Elt Ideal) ℓ) (hpre : Cert.Pre_KernelIdeal m) (c : Dev nD) :
    SrcInRange (m ((c.tc : Thread nD τ).loc main_arg1)) := by
  intro i
  have h := congrFun (hpre c) ix0
  -- the precondition is a conjunction of one-bit words; its last word is the and-reduction, over all edges, of
  -- −100000 ≤ s and s < 100000
  have h2 : Host.reduce IntOp.andi
      (andi (cmpi .sge (src (m ((c.tc : Thread nD τ).loc main_arg1)))
          (broadcastInDim S600000 ![] bcast_S_S600000 (constantI S_ 32 4294867296#32)))
        (cmpi .slt (src (m ((c.tc : Thread nD τ).loc main_arg1)))
          (broadcastInDim S600000 ![] bcast_S_S600000 (constantI S_ 32 100000#32))))
      (constantI S_ 1 1#1) Cert.Pre_finite_inputs.Gen.reducesTo_S600000_S_d0 h_S_ ix0 = 1#1 :=
    (IntOp.andi_eq_one.1 h).2
  have h3 : IntOp.andi (IntOp.cmpi .sge (src (m ((c.tc : Thread nD τ).loc main_arg1)) i) 4294867296#32)
      (IntOp.cmpi .slt (src (m ((c.tc : Thread nD τ).loc main_arg1)) i) 100000#32) = 1#1 :=
    Host.reduce_andi_eq_one _ _ _ _ _ h2 i (funext fun d => d.elim0)
  have lo : (4294867296#32 : BitVec 32).toInt = -100000 := by decide
  have hi : (100000#32 : BitVec 32).toInt = 100000 := by decide
  rw [IntOp.andi_eq_one, IntOp.cmpi_sge, IntOp.cmpi_slt, lo, hi] at h3
  exact h3

end Cert.Neighbours

end
-- ==== Proof.KRegion0.lean ====
/-
  The first kernel region (the normalisation of the rectified input), read as a value: whatever the
  region finds in its six arrays, its output array ends holding stage one of the specification applied to the
  input array and the four per-feature rows.  Each of the 20 grid points handles 5000 consecutive nodes; a point's
  output block is the stage-one function of that point's input block and of the four [1, 128] rows, which every
  point reads whole; the 20 blocks tile the array.
-/
import proofs.«404688_j43593918054550_1_alg».proof.Proof.Gen.KernelIdeal.Frame
import proofs.«404688_j43593918054550_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen Cert.KernelIdeal.Facts₀ Cert.KernelIdeal.Facts Cert.SageSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at one element -/

/-- The reciprocal square root of a vector, read at an index, is that of the element there. -/
theorem rsqrt_apply {s : Shape} {φ : FTy} (a : FVec Ideal s φ) (i : s.Idx) : rsqrt a i = Ideal.rsqrt (a i) := rfl

/-- The body's stored value at row `p`, feature `q` of a block: the rectified input there, less the mean row at `q`,
    times the reciprocal square root of the variance row at `q` plus ε, times the scale row at `q`, plus the shift row at
    `q` (each [1, 128] row broadcast over the 5000 rows reads its one row; the zero word is the real 0). -/
theorem payload_apply (x0 : Vec Ideal S5000x128 .f32) (xv xm xg xb : Vec Ideal S1x128 .f32) (p : Fin 5000) (q : Fin 128) :
    k0_pay1 (F := Ideal) x0 xv xm xg xb (ix2 p q)
      = (max (x0 (ix2 p q)) 0 - xm (ix2 0 q)) * Ideal.rsqrt (xv (ix2 0 q) + epsBn) * xg (ix2 0 q) + xb (ix2 0 q) := by
  unfold k0_pay1
  simp only [addf_apply, mulf_apply, subf_apply, maximumf_apply, broadcast_apply, shapeCast_self,
    broadcastTo_1b_ab_apply, rsqrt_apply]
  rw [show FloatOps.ofBits (F := Ideal) .f32 0#32 = 0 from Ideal.ofBits_zero_f32]
  rfl

/-! ## Where each window's block sits in its array -/

/-- The zero offsets of a whole-buffer access, as the constant function. -/
theorem zero_offsets : (![0, 0] : Fin 2 → Nat) = fun _ => 0 := funext fun a => by fin_cases a <;> rfl

/-- The block indices over the 20 points: the input and the output move down the rows with the point (block `(t, 0)`),
    the four rows stay at block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input block at point `t`, at row `p` and feature `q`, is the input array at row `5000 t + p`, feature `q`. -/
theorem input_block_apply (c : Dev nD) (t : Fin cfg0.N) (p : Fin 5000) (q : Fin 128) (r : Fin 100000)
    (hr : r.val = t.val * 5000 + p.val) :
    (iblk0 V c 0 t : Vec Ideal S5000x128 .f32) (ix2 p q) = (V c main_arg0 : S100000x128.Idx → EReal) (ix2 r q) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 128 + 1 * q.val = q.val; omega

/-- The mean, variance, scale and shift blocks at any point are their whole [1, 128] arrays. -/
theorem row_block_apply (c : Dev nD) (t : Fin cfg0.N) (q : Fin 128) :
    (iblk0 V c 1 t : Vec Ideal S1x128 .f32) (ix2 0 q) = (V c main_v0 : S1x128.Idx → EReal) (ix2 0 q)
    ∧ (iblk0 V c 2 t : Vec Ideal S1x128 .f32) (ix2 0 q) = (V c main_v1 : S1x128.Idx → EReal) (ix2 0 q)
    ∧ (iblk0 V c 3 t : Vec Ideal S1x128 .f32) (ix2 0 q) = (V c main_v2 : S1x128.Idx → EReal) (ix2 0 q)
    ∧ (iblk0 V c 4 t : Vec Ideal S1x128 .f32) (ix2 0 q) = (V c main_v3 : S1x128.Idx → EReal) (ix2 0 q) := by
  obtain ⟨-, -, e10, e11, e20, e21, e30, e31, e40, e41, -⟩ := block_indices t
  unfold iblk0
  simp only [View.read_apply]
  refine ⟨?_, ?_, ?_, ?_⟩
  · show V c main_v0 _ = V c main_v0 _
    congr 1
    funext a
    apply Fin.ext
    match a with
    | ⟨0, _⟩ => show win0_1.index t (0 : Fin 2) * 1 + 1 * 0 = 0; omega
    | ⟨1, _⟩ => show win0_1.index t (1 : Fin 2) * 128 + 1 * q.val = q.val; omega
  · show V c main_v1 _ = V c main_v1 _
    congr 1
    funext a
    apply Fin.ext
    match a with
    | ⟨0, _⟩ => show win0_2.index t (0 : Fin 2) * 1 + 1 * 0 = 0; omega
    | ⟨1, _⟩ => show win0_2.index t (1 : Fin 2) * 128 + 1 * q.val = q.val; omega
  · show V c main_v2 _ = V c main_v2 _
    congr 1
    funext a
    apply Fin.ext
    match a with
    | ⟨0, _⟩ => show win0_3.index t (0 : Fin 2) * 1 + 1 * 0 = 0; omega
    | ⟨1, _⟩ => show win0_3.index t (1 : Fin 2) * 128 + 1 * q.val = q.val; omega
  · show V c main_v3 _ = V c main_v3 _
    congr 1
    funext a
    apply Fin.ext
    match a with
    | ⟨0, _⟩ => show win0_4.index t (0 : Fin 2) * 1 + 1 * 0 = 0; omega
    | ⟨1, _⟩ => show win0_4.index t (1 : Fin 2) * 128 + 1 * q.val = q.val; omega

/-- Row `p`, feature `q` of the output block at point `t` is row `5000 t + p`, feature `q` of the output array. -/
theorem output_block_emb (t : Fin cfg0.N) (p : Fin 5000) (q : Fin 128) (r : Fin 100000)
    (hr : r.val = t.val * 5000 + p.val) :
    (((cfg0.win 5).blk t).view.emb (ix2 p q) : S100000x128.Idx) = ix2 r q := by
  obtain ⟨-, -, -, -, -, -, -, -, -, -, e50, e51⟩ := block_indices t
  funext a
  apply Fin.ext
  match a with
  | ⟨0, _⟩ => show win0_5.index t (0 : Fin 2) * 5000 + 1 * p.val = r.val; omega
  | ⟨1, _⟩ => show win0_5.index t (1 : Fin 2) * 128 + 1 * q.val = q.val; omega

/-! ## What a point writes back, and the 20 blocks together -/

/-- WHAT POINT `t` WRITES BACK is block `t` of stage one: the body's one whole-buffer store leaves its value, which at row
    `p`, feature `q` is the normalisation of the input at row `5000 t + p` by the four rows at `q`. -/
theorem written_block_eq (c : Dev nD) (mean var gamma beta : Feat.Idx → EReal)
    (hmean : ∀ j : Fin 128, (V c main_v0 : S1x128.Idx → EReal) (ix2 0 j) = mean (ix1 j))
    (hvar : ∀ j : Fin 128, (V c main_v1 : S1x128.Idx → EReal) (ix2 0 j) = var (ix1 j))
    (hgamma : ∀ j : Fin 128, (V c main_v2 : S1x128.Idx → EReal) (ix2 0 j) = gamma (ix1 j))
    (hbeta : ∀ j : Fin 128, (V c main_v3 : S1x128.Idx → EReal) (ix2 0 j) = beta (ix1 j)) (t : Fin cfg0.N) :
    (dat0 (F := Ideal) V c).flushed 5 t
      = ((cfg0.win 5).blk t).view.read (Elt Ideal) (bnArr (V c main_arg0) mean var gamma beta) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  have ht : t.val < 20 := lt_of_lt_of_eq t.isLt N_0
  have hr : (⟨t.val * 5000 + p.val, by have := p.isLt; omega⟩ : Fin 100000).val = t.val * 5000 + p.val := rfl
  obtain ⟨e1, e2, e3, e4⟩ := row_block_apply V c t q
  show k0_pay1 (iblk0 V c 0 t) (iblk0 V c 2 t) (iblk0 V c 1 t) (iblk0 V c 3 t) (iblk0 V c 4 t) (ix2 p q)
      = bnArr (V c main_arg0) mean var gamma beta (((cfg0.win 5).blk t).view.emb (ix2 p q))
  refine (payload_apply (iblk0 V c 0 t) (iblk0 V c 2 t) (iblk0 V c 1 t) (iblk0 V c 3 t) (iblk0 V c 4 t) p q).trans ?_
  rw [output_block_emb t p q _ hr, bnArr_apply, input_block_apply V c t p q _ hr, e1, e2, e3, e4,
    hmean, hvar, hgamma, hbeta]
  rfl

/-- An index of the output array is in point `t`'s block iff each coordinate is in the block's range on its axis. -/
theorem mem_output_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v4).slice (win0_5.rect t)).set ↔ _
  rw [View.set_slice_whole, Rect.mem_set_unit]
  exact Iff.rfl

/-- THE 20 BLOCKS TILE THE ARRAY: row `r` lies in the block of point `r / 5000`, and every point writes back. -/
theorem output_covered (i : S100000x128.Idx) :
    ∃ t : Fin cfg0.N, (cfg0.win 5).flush t = true ∧ i ∈ ((cfg0.win 5).blk t).view.set := by
  have h0 : (i 0).val < 100000 := idx2_lt0 i
  have h1 : (i 1).val < 128 := idx2_lt1 i
  have hN : cfg0.N = 20 := N_0
  obtain ⟨t, ht⟩ : ∃ t : Fin cfg0.N, t.val = (i 0).val / 5000 :=
    ⟨⟨(i 0).val / 5000, lt_of_lt_of_eq (by omega) hN.symm⟩, rfl⟩
  obtain ⟨-, -, -, -, -, -, -, -, -, -, e50, e51⟩ := block_indices t
  refine ⟨t, flush0_5 t, ?_⟩
  rw [mem_output_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE REGION'S OUTPUT ARRAY after its 20 points: stage one of the input array `V c main_arg0` with the mean,
    variance, scale and shift rows read off the region's four [1, 128] arrays (`main_v0` … `main_v3`). -/
theorem region0_value (c : Dev nD) (mean var gamma beta : Feat.Idx → EReal)
    (hmean : ∀ j : Fin 128, (V c main_v0 : S1x128.Idx → EReal) (ix2 0 j) = mean (ix1 j))
    (hvar : ∀ j : Fin 128, (V c main_v1 : S1x128.Idx → EReal) (ix2 0 j) = var (ix1 j))
    (hgamma : ∀ j : Fin 128, (V c main_v2 : S1x128.Idx → EReal) (ix2 0 j) = gamma (ix1 j))
    (hbeta : ∀ j : Fin 128, (V c main_v3 : S1x128.Idx → EReal) (ix2 0 j) = beta (ix1 j)) :
    (dat0 (F := Ideal) V c).arrAt 5 cfg0.N = bnArr (V c main_arg0) mean var gamma beta :=
  (dat0 V c).arrAt_eq_of_cover 5 (bnArr (V c main_arg0) mean var gamma beta)
    (fun t _ => written_block_eq V c mean var gamma beta hmean hvar hgamma hbeta t) output_covered

end Cert.KernelIdeal.Region0

end
-- ==== Proof.KRegion1.lean ====
/-
  The second kernel region (the two projections, the bias and the row normalisation), read as a value:
  whatever the region finds in its six arrays, its output array ends holding stage two of the specification
  applied to the feature array, the neighbourhood-mean array, the two weight matrices and the bias row.  Each of
  the 20 grid points handles 5000 consecutive nodes and reads the two matrices and the bias whole; a row of the
  output depends only on the same row of the two [nodes, features] inputs, so a point's block is the stage-two
  function restricted to its rows; the 20 blocks tile the array.  The narrowing of the operands to a shorter float
  format before the two products is the identity over the extended reals, and a product into a zero accumulator
  is the plain sum over the contracted feature.
-/
import proofs.«404688_j43593918054550_1_alg».proof.Proof.Gen.KernelIdeal.Frame
import proofs.«404688_j43593918054550_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.SageSpec
open Idealize.ShloMosaic Idealize.ShloMosaic.TcCoe Idealize.ShloMosaic.ValueIdx Idealize.SL.Sem
open Idealize.ShloMosaic.Pipeline (Dat Cfg Window)

/-! ## Two column layouts -/

section Columns
variable {α : Type}

/-- A vector of `a` entries viewed as an `[a, 1]` column reads, at `(p, u)`, the vector's entry `p`: both
    have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A product of a block of rows with a square matrix, at an index -/

theorem lhs_prod_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_prod_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_prod_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_prod_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a `[5000, 128]` block with a `[128, 128]` matrix into a zero accumulator, at row `p` and
    column `q`: the sum over the contracted feature `k` of `lhs (p, k) * rhs (k, q)`. -/
theorem prod_apply (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  refine (Ideal.matmul_constant_zero_apply dot_S5000x128_S128x128_S5000x128_1_0_0_1_n_n none lhs rhs (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_prod_0 _ _
    | ⟨1, _⟩ => exact (lhs_prod_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_prod_0 _ _).trans hk
    | ⟨1, _⟩ => exact rhs_prod_1 _ _)
  rw [el, er]

/-! ## A sum along the feature axis, at a row -/

/-- The sum of a `[5000, 128]` block along its feature axis, at row `p`: the sum over `k` of the entries `(p, k)`. -/
theorem laneSum_apply (src : FVec Ideal S5000x128 .f32) (h : S5000x128.Reduces [1] S5000) (hφ : FKind.Formats FTy.f32)
    (hacc : (0x00000000#32 : BitVec 32) = 0x00000000#32) (p : Fin 5000) :
    multiReduction (F := Ideal) .add [1] S5000 src 0x00000000#32 h hφ hacc (ix1 p) = ∑ k : Fin 128, src (ix2 p k) := by
  refine (Ideal.multiReduction_add_single src 0x00000000#32 h hφ hacc (ix1 p)).trans ?_
  show ∑ k : Fin 128, src (h.lift (ix1 p) k) = _
  refine Finset.sum_congr rfl fun k _ => congrArg src ?_
  funext a; apply Fin.ext
  match a with
  | ⟨0, _⟩ => rfl
  | ⟨1, _⟩ => rfl

/-! ## The body's arithmetic at an index -/

/-- The two projections plus the bias over one point's blocks, at row `p` and feature `q`: the block of
    neighbourhood means times the first matrix, plus the bias row, plus the block of features times the second. -/
def linBlk (h a : S5000x128.Idx → EReal) (wl : S128x128.Idx → EReal) (bias : S1x128.Idx → EReal)
    (wr : S128x128.Idx → EReal) (p : Fin 5000) (q : Fin 128) : EReal :=
  (∑ k : Fin 128, a (ix2 p k) * wl (ix2 k q)) + bias (ix2 0 q) + ∑ k : Fin 128, h (ix2 p k) * wr (ix2 k q)

/-- The body's value before the row normalisation, as a block: the two products into zero accumulators of
    the narrowed operands, the first plus the bias row spread over the rows, plus the second. -/
def preNorm (v0 v3 : Vec Ideal S5000x128 .f32) (v6 v9 : Vec Ideal S128x128 .f32) (v13 : Vec Ideal S1x128 .f32) :
    FVec Ideal S5000x128 .f32 :=
  addf (addf (matmul dot_S5000x128_S128x128_S5000x128_1_0_0_1_n_n none
        (truncf .bf16 (shapeCast S5000x128 v3 Gen.shapeCasts_S5000x128_S5000x128) Gen.bitsLt_bf16_f32)
        (truncf .bf16 (shapeCast S128x128 v6 Gen.shapeCasts_S128x128_S128x128) Gen.bitsLt_bf16_f32)
        (constant S5000x128 .f32 0x00000000#32))
      (broadcastTo S5000x128 (shapeCast S1x128 v13 Gen.shapeCasts_S1x128_S1x128) Gen.broadcasts_S1x128_S5000x128))
    (matmul dot_S5000x128_S128x128_S5000x128_1_0_0_1_n_n none
        (truncf .bf16 (shapeCast S5000x128 v0 Gen.shapeCasts_S5000x128_S5000x128) Gen.bitsLt_bf16_f32)
        (truncf .bf16 (shapeCast S128x128 v9 Gen.shapeCasts_S128x128_S128x128) Gen.bitsLt_bf16_f32)
        (constant S5000x128 .f32 0x00000000#32))

/-- The body's stored value is that block divided, row by row, by the larger of the root of the row's sum of
    squares and the small constant. -/
theorem pay_eq (v0 v3 : Vec Ideal S5000x128 .f32) (v6 v9 : Vec Ideal S128x128 .f32) (v13 : Vec Ideal S1x128 .f32) :
    k1_pay1 (F := Ideal) v0 v3 v6 v9 v13
      = divf (preNorm v0 v3 v6 v9 v13)
          (broadcastTo S5000x128
            (maximumf
              (sqrt (shapeCast S5000x1
                (multiReduction .add [1] S5000 (mulf (preNorm v0 v3 v6 v9 v13) (preNorm v0 v3 v6 v9 v13)) 0x00000000#32
                  Gen.reduces_S5000x128_S5000 (.inl rfl) rfl)
                Gen.shapeCasts_S5000_S5000x1))
              (broadcast S5000x1 (Scalar.ofBits .f32 0x2B8CBCCC#32)))
            Gen.broadcasts_S5000x1_S5000x128) := rfl

/-- Before the normalisation, at row `p` and feature `q`: the narrowing of the operands is the identity over the
    extended reals, each product into zero is the sum over the contracted feature, the bias row is read at `q`. -/
theorem preNorm_apply (v0 v3 : Vec Ideal S5000x128 .f32) (v6 v9 : Vec Ideal S128x128 .f32) (v13 : Vec Ideal S1x128 .f32)
    (p : Fin 5000) (q : Fin 128) : preNorm v0 v3 v6 v9 v13 (ix2 p q) = linBlk v0 v3 v6 v13 v9 p q := by
  unfold preNorm linBlk
  rw [addf_apply, addf_apply, prod_apply, prod_apply, broadcastTo_1b_ab_apply]
  simp only [truncf_apply, shapeCast_self]

/-- THE BODY'S STORED VALUE at row `p` and feature `q` of a point's block. -/
theorem pay_apply (v0 v3 : Vec Ideal S5000x128 .f32) (v6 v9 : Vec Ideal S128x128 .f32) (v13 : Vec Ideal S1x128 .f32)
    (p : Fin 5000) (q : Fin 128) :
    k1_pay1 (F := Ideal) v0 v3 v6 v9 v13 (ix2 p q)
      = Ideal.div (linBlk v0 v3 v6 v13 v9 p q)
          (max (Ideal.sqrt (∑ j : Fin 128, linBlk v0 v3 v6 v13 v9 p j * linBlk v0 v3 v6 v13 v9 p j)) epsNorm) := by
  rw [pay_eq, divf_apply, preNorm_apply, broadcastTo_a1_ab_apply, maximumf_apply, broadcast_apply]
  show Ideal.div _ (max (Ideal.sqrt (shapeCast S5000x1 _ _ (ix2 p 0))) _) = _
  rw [shapeCast_a_a1_apply, laneSum_apply]
  simp only [mulf_apply, preNorm_apply]
  rfl

/-! ## From the points' blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the 20 points: the two [nodes, features] inputs move with the output, whose
    block index along the nodes is the point's number; the matrices and the bias row stay at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p`, feature `k` of point `t`'s block of the feature array is row `t * 5000 + p` of the array. -/
theorem emb_feat (t : Fin cfg1.N) (p : Fin 5000) (k : Fin 128) (r : Fin 100000) (hr : r.val = t.val * 5000 + p.val) :
    ((cfg1.win 0).blk t).view.emb (ix2 p k : S5000x128.Idx) = (ix2 r k : S100000x128.Idx) := by
  obtain ⟨e0, e1, -⟩ := index_facts t
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- The same for the neighbourhood-mean array. -/
theorem emb_mean (t : Fin cfg1.N) (p : Fin 5000) (k : Fin 128) (r : Fin 100000) (hr : r.val = t.val * 5000 + p.val) :
    ((cfg1.win 1).blk t).view.emb (ix2 p k : S5000x128.Idx) = (ix2 r k : S100000x128.Idx) := by
  obtain ⟨-, -, e0, e1, -⟩ := index_facts t
  funext a; apply Fin.ext
  match a with
  | ⟨0, _⟩ => show win1_1.index t (0 : Fin 2) * 5000 + 1 * p.val = r.val; omega
  | ⟨1, _⟩ => show win1_1.index t (1 : Fin 2) * 128 + 1 * k.val = k.val; omega

/-- The same for the output array. -/
theorem emb_out (t : Fin cfg1.N) (p : Fin 5000) (k : Fin 128) (r : Fin 100000) (hr : r.val = t.val * 5000 + p.val) :
    ((cfg1.win 5).blk t).view.emb (ix2 p k : S5000x128.Idx) = (ix2 r k : S100000x128.Idx) := by
  obtain ⟨-, -, -, -, -, -, -, -, -, -, e0, e1⟩ := index_facts t
  funext a; apply Fin.ext
  match a with
  | ⟨0, _⟩ => show win1_5.index t (0 : Fin 2) * 5000 + 1 * p.val = r.val; omega
  | ⟨1, _⟩ => show win1_5.index t (1 : Fin 2) * 128 + 1 * k.val = k.val; omega

/-- The first matrix is read whole at every point. -/
theorem emb_wl (t : Fin cfg1.N) (k j : Fin 128) :
    ((cfg1.win 2).blk t).view.emb (ix2 k j : S128x128.Idx) = (ix2 k j : S128x128.Idx) := by
  obtain ⟨-, -, -, -, e0, e1, -⟩ := index_facts t
  funext a; apply Fin.ext
  match a with
  | ⟨0, _⟩ => show win1_2.index t (0 : Fin 2) * 128 + 1 * k.val = k.val; omega
  | ⟨1, _⟩ => show win1_2.index t (1 : Fin 2) * 128 + 1 * j.val = j.val; omega

/-- The bias row is read whole at every point. -/
theorem emb_bias (t : Fin cfg1.N) (u : Fin 1) (j : Fin 128) :
    ((cfg1.win 3).blk t).view.emb (ix2 u j : S1x128.Idx) = (ix2 u j : S1x128.Idx) := by
  obtain ⟨-, -, -, -, -, -, e0, e1, -⟩ := index_facts t
  funext a; apply Fin.ext
  match a with
  | ⟨0, _⟩ => show win1_3.index t (0 : Fin 2) * 1 + 1 * u.val = u.val; omega
  | ⟨1, _⟩ => show win1_3.index t (1 : Fin 2) * 128 + 1 * j.val = j.val; omega

/-- The second matrix is read whole at every point. -/
theorem emb_wr (t : Fin cfg1.N) (k j : Fin 128) :
    ((cfg1.win 4).blk t).view.emb (ix2 k j : S128x128.Idx) = (ix2 k j : S128x128.Idx) := by
  obtain ⟨-, -, -, -, -, -, -, -, e0, e1, -⟩ := index_facts t
  funext a; apply Fin.ext
  match a with
  | ⟨0, _⟩ => show win1_4.index t (0 : Fin 2) * 128 + 1 * k.val = k.val; omega
  | ⟨1, _⟩ => show win1_4.index t (1 : Fin 2) * 128 + 1 * j.val = j.val; omega

/-- Over point `t`'s blocks the projections plus bias at row `p` are the specification's at row `t * 5000 + p` of
    the arrays: each block entry is the array's entry at the block's offset plus the coordinate inside the block. -/
theorem linBlk_eq_lin (c : Dev nD) (b : Feat.Idx → EReal)
    (hb : ∀ j : Fin 128, (V c main_v24 : S1x128.Idx → EReal) (ix2 0 j) = b (ix1 j))
    (t : Fin cfg1.N) (p : Fin 5000) (r : Fin 100000) (hr : r.val = t.val * 5000 + p.val) (q : Fin 128) :
    linBlk (iblk1 V c 0 t) (iblk1 V c 1 t) (iblk1 V c 2 t) (iblk1 V c 3 t) (iblk1 V c 4 t) p q
      = lin (V c main_v4) (V c main_v21) (V c main_v22) b (V c main_v23) r q := by
  have e0 : ∀ k : Fin 128, (iblk1 V c 0 t : S5000x128.Idx → EReal) (ix2 p k) = (V c main_v4 : S100000x128.Idx → EReal) (ix2 r k) :=
    fun k => congrArg (V c main_v4 : S100000x128.Idx → EReal) (emb_feat t p k r hr)
  have e1 : ∀ k : Fin 128, (iblk1 V c 1 t : S5000x128.Idx → EReal) (ix2 p k) = (V c main_v21 : S100000x128.Idx → EReal) (ix2 r k) :=
    fun k => congrArg (V c main_v21 : S100000x128.Idx → EReal) (emb_mean t p k r hr)
  have e2 : ∀ k : Fin 128, (iblk1 V c 2 t : S128x128.Idx → EReal) (ix2 k q) = (V c main_v22 : S128x128.Idx → EReal) (ix2 k q) :=
    fun k => congrArg (V c main_v22 : S128x128.Idx → EReal) (emb_wl t k q)
  have e3 : (iblk1 V c 3 t : S1x128.Idx → EReal) (ix2 0 q) = b (ix1 q) :=
    (congrArg (V c main_v24 : S1x128.Idx → EReal) (emb_bias t 0 q)).trans (hb q)
  have e4 : ∀ k : Fin 128, (iblk1 V c 4 t : S128x128.Idx → EReal) (ix2 k q) = (V c main_v23 : S128x128.Idx → EReal) (ix2 k q) :=
    fun k => congrArg (V c main_v23 : S128x128.Idx → EReal) (emb_wr t k q)
  unfold linBlk lin
  simp only [e0, e1, e2, e3, e4]

/-- WHAT POINT `t` WRITES BACK is block `t` of stage two of the arrays: the body's one store through the whole
    staging buffer leaves its stored value, which at row `p` of the block is the specification's row `t * 5000 + p`. -/
theorem flushed_eq (c : Dev nD) (b : Feat.Idx → EReal)
    (hb : ∀ j : Fin 128, (V c main_v24 : S1x128.Idx → EReal) (ix2 0 j) = b (ix1 j)) (t : Fin cfg1.N) :
    (dat1 (F := Ideal) V c).flushed 5 t
      = ((cfg1.win 5).blk t).view.read (Elt Ideal) (sageArr (V c main_v4) (V c main_v21) (V c main_v22) b (V c main_v23)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  have ht : t.val < 20 := lt_of_lt_of_eq t.isLt N_1
  have hp : p.val < 5000 := p.isLt
  obtain ⟨r, hr⟩ : ∃ r : Fin 100000, r.val = t.val * 5000 + p.val := ⟨⟨t.val * 5000 + p.val, by omega⟩, rfl⟩
  show k1_pay1 (F := Ideal) (iblk1 V c 0 t) (iblk1 V c 1 t) (iblk1 V c 2 t) (iblk1 V c 4 t) (iblk1 V c 3 t) (ix2 p q)
    = sageArr (V c main_v4) (V c main_v21) (V c main_v22) b (V c main_v23) (((cfg1.win 5).blk t).view.emb (ix2 p q : S5000x128.Idx))
  rw [pay_apply, emb_out t p q r hr, sageArr_apply]
  unfold sage
  simp only [linBlk_eq_lin V c b hb t p r hr]

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v25).slice (win1_5.rect t)).set ↔ _
  rw [View.set_slice_whole, Rect.mem_set_unit]
  exact Iff.rfl

/-- THE 20 BLOCKS TILE THE ARRAY: row `r` is in the block of point `r / 5000`, which writes back. -/
theorem covered (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, -, -, -, -, e0, e1⟩ := index_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE REGION'S OUTPUT ARRAY after its 20 points: stage two of the feature array `V c main_v4`, the
    neighbourhood means `V c main_v21`, the matrices `V c main_v22` and `V c main_v23`, and the bias read off
    the [1, 128] array `main_v24`. -/
theorem region1_value (c : Dev nD) (b : Feat.Idx → EReal)
    (hb : ∀ j : Fin 128, (V c main_v24 : S1x128.Idx → EReal) (ix2 0 j) = b (ix1 j)) :
    (dat1 (F := Ideal) V c).arrAt 5 cfg1.N
      = sageArr (V c main_v4) (V c main_v21) (V c main_v22) b (V c main_v23) :=
  (dat1 (F := Ideal) V c).arrAt_eq_of_cover 5 _ (fun t _ => flushed_eq V c b hb t) covered

end Cert.KernelIdeal.Region1

end
-- ==== Proof.RefResult.lean ====
/-
  The reference's result array as the specification's two stages.

  The reference computes everything on the host.  Read entry by entry: its normalised features are stage one of
  the specification of the input and the four per-feature vectors (each spread over the nodes by two
  broadcasts); its neighbourhood mean is the shared host chain applied to the rows fetched at the wrapped source
  indices; and its result is stage two: the two products are sums over the contracted feature, the bias is spread
  over the nodes, a row's length is the root of the host's sum of squares from zero, floored and spread back
  over the features, and the division is the extended reals' quotient.
-/
import proofs.«404688_j43593918054550_1_alg».proof.Defs
import proofs.«404688_j43593918054550_1_alg».proof.Proof.Gen.ReferenceIdeal.Run
import proofs.«404688_j43593918054550_1_alg».proof.Proof.Gen.ReferenceIdeal.Read
import proofs.«404688_j43593918054550_1_alg».proof.Proof.Spec
import proofs.«404688_j43593918054550_1_alg».proof.Proof.Neighbours

set_option maxRecDepth 16384

noncomputable section

namespace Cert.ReferenceIdeal.RefResult

open Cert.ReferenceIdeal Cert.ReferenceIdeal.Facts₀ Cert.ReferenceIdeal.Facts Cert.ReferenceIdeal.Read Cert.SageSpec
open Idealize.ShloMosaic Idealize.ShloMosaic.ValueIdx

/-- The reference's normalised features are stage one (arguments 10, 11, 8, 9 are the mean, the variance, the
    scale and the shift). -/
theorem ref_bn (x0 : FVec Ideal S100000x128 .f32) (x8 x9 x10 x11 : FVec Ideal S128 .f32) :
    val_main_v51 (F := Ideal) x0 x8 x9 x10 x11 = bnArr x0 x10 x11 x8 x9 := by
  funext i
  obtain ⟨r, j, rfl⟩ : ∃ (r : Fin 100000) (j : Fin 128), i = ix2 r j := ⟨i 0, i 1, eq_ix2 i⟩
  -- each per-feature vector is spread over the nodes by two broadcasts: read at (r, j) it is the vector at j
  have h37 : idx_main_v37 (idx_main_v38 (ix2 r j)) = ix1 j :=
    funext fun a => Fin.ext (by match a with | ⟨0, _⟩ => rfl)
  have h43 : idx_main_v43 (idx_main_v44 (ix2 r j)) = ix1 j :=
    funext fun a => Fin.ext (by match a with | ⟨0, _⟩ => rfl)
  have h46 : idx_main_v46 (idx_main_v47 (ix2 r j)) = ix1 j :=
    funext fun a => Fin.ext (by match a with | ⟨0, _⟩ => rfl)
  have h49 : idx_main_v49 (idx_main_v50 (ix2 r j)) = ix1 j :=
    funext fun a => Fin.ext (by match a with | ⟨0, _⟩ => rfl)
  -- the element (r, j): ((max(x, 0) − mean) · rsqrt(var + ε) · scale) + shift
  rw [val_main_v51_apply, val_main_v48_apply, val_main_v45_apply, val_main_v39_apply, val_main_v36_apply,
    val_main_call1_v0_apply, val_main_call1_cst_apply, val_main_v38_apply, val_main_v37_apply,
    val_main_v44_apply, val_main_v43_apply, val_main_v42_apply, val_main_v41_apply, val_main_v40_apply,
    val_main_cst_5_apply, val_main_v47_apply, val_main_v46_apply, val_main_v50_apply, val_main_v49_apply,
    h37, h43, h46, h49, bnArr_apply]
  -- at the extended reals the operations are the extended reals' own, and the word 0 encodes 0
  simp only [bnRelu, epsBn, Ideal.addf_def, Ideal.mulf_def, Ideal.subf_def, Ideal.maximumf_def, Ideal.ofBits_def,
    Ideal.hostUnary_rsqrt_def, Ideal.ofBits_zero_f32]

/-- The reference's neighbourhood mean is the shared chain over the rows fetched at the wrapped source indices. -/
theorem ref_mean (x0 : FVec Ideal S100000x128 .f32) (x1 : IVec S2x600000 32) (x8 x9 x10 x11 : FVec Ideal S128 .f32) :
    (val_main_v70 (F := Ideal) x0 x1 x8 x9 x10 x11 : FVec Ideal S100000x128 .f32)
      = (Cert.Neighbours.meanOf (F := Ideal) (Cert.Neighbours.rows (F := Ideal) (val_main_v51 (F := Ideal) x0 x8 x9 x10 x11) x1) x1
          : FVec Ideal Cert.KernelIdeal.S100000x128 .f32) := by
  -- both sides are the same chain of host operations over the same literal shapes and dimension records, the one
  -- written with the reference program's names and the other with the kernel program's: equal by unfolding
  rfl

/-- The reference's pre-normalisation value at a node and a feature is the specification's linear stage: the two
    contractions are sums over the contracted feature and the bias is read at the feature. -/
theorem ref_lin (x0 : FVec Ideal S100000x128 .f32) (x1 : IVec S2x600000 32) (x5 : FVec Ideal S128x128 .f32)
    (x6 : FVec Ideal S128 .f32) (x7 : FVec Ideal S128x128 .f32) (x8 x9 x10 x11 : FVec Ideal S128 .f32)
    (r : Fin 100000) (j : Fin 128) :
    val_main_v78 (F := Ideal) x0 x1 x5 x6 x7 x8 x9 x10 x11 (ix2 r j)
      = lin (val_main_v51 (F := Ideal) x0 x8 x9 x10 x11) (val_main_v70 (F := Ideal) x0 x1 x8 x9 x10 x11)
          (val_main_v71 (F := Ideal) x5) x6 (val_main_v76 (F := Ideal) x7) r j := by
  have hl72 : ∀ k : Fin 128, lidx_main_v72 (ix2 r j) k = ix2 r k := fun k =>
    funext fun a => Fin.ext (by match a with | ⟨0, _⟩ => rfl | ⟨1, _⟩ => rfl)
  have hr72 : ∀ k : Fin 128, ridx_main_v72 (ix2 r j) k = ix2 k j := fun k =>
    funext fun a => Fin.ext (by match a with | ⟨0, _⟩ => rfl | ⟨1, _⟩ => rfl)
  have hl77 : ∀ k : Fin 128, lidx_main_v77 (ix2 r j) k = ix2 r k := fun k =>
    funext fun a => Fin.ext (by match a with | ⟨0, _⟩ => rfl | ⟨1, _⟩ => rfl)
  have hr77 : ∀ k : Fin 128, ridx_main_v77 (ix2 r j) k = ix2 k j := fun k =>
    funext fun a => Fin.ext (by match a with | ⟨0, _⟩ => rfl | ⟨1, _⟩ => rfl)
  have h73 : idx_main_v73 (idx_main_v74 (ix2 r j)) = ix1 j :=
    funext fun a => Fin.ext (by match a with | ⟨0, _⟩ => rfl)
  -- the element (r, j): the contraction of the mean's row with column j, plus the bias at j, plus the contraction of
  -- the features' row with column j; each contraction reads its left operand at (r, k) and its right at (k, j)
  rw [val_main_v78_apply, val_main_v75_apply, val_main_v72_apply, val_main_v74_apply, val_main_v73_apply,
    val_main_v77_apply, h73]
  simp only [hl72, hr72, hl77, hr77, Ideal.addf_def]
  rfl

/-- The square the reference sums for a row's length, at a node and a feature, is the linear stage's square. -/
theorem ref_sq (x0 : FVec Ideal S100000x128 .f32) (x1 : IVec S2x600000 32) (x5 : FVec Ideal S128x128 .f32)
    (x6 : FVec Ideal S128 .f32) (x7 : FVec Ideal S128x128 .f32) (x8 x9 x10 x11 : FVec Ideal S128 .f32)
    (r : Fin 100000) (q : Fin 128) :
    val_main_call2_v0 (F := Ideal) x0 x1 x5 x6 x7 x8 x9 x10 x11 (ix2 r q)
      = lin (val_main_v51 (F := Ideal) x0 x8 x9 x10 x11) (val_main_v70 (F := Ideal) x0 x1 x8 x9 x10 x11)
            (val_main_v71 (F := Ideal) x5) x6 (val_main_v76 (F := Ideal) x7) r q
          * lin (val_main_v51 (F := Ideal) x0 x8 x9 x10 x11) (val_main_v70 (F := Ideal) x0 x1 x8 x9 x10 x11)
            (val_main_v71 (F := Ideal) x5) x6 (val_main_v76 (F := Ideal) x7) r q := by
  rw [val_main_call2_v0_apply, ref_lin]
  rfl

/-- The reference's result is stage two of its normalised features, its neighbourhood mean, the two transposed
    weight matrices and the bias vector. -/
theorem ref_sage (x0 : FVec Ideal S100000x128 .f32) (x1 : IVec S2x600000 32) (x5 : FVec Ideal S128x128 .f32)
    (x6 : FVec Ideal S128 .f32) (x7 : FVec Ideal S128x128 .f32) (x8 x9 x10 x11 : FVec Ideal S128 .f32) :
    val_main_v83 (F := Ideal) x0 x1 x5 x6 x7 x8 x9 x10 x11
      = sageArr (val_main_v51 (F := Ideal) x0 x8 x9 x10 x11) (val_main_v70 (F := Ideal) x0 x1 x8 x9 x10 x11)
          (val_main_v71 (F := Ideal) x5) x6 (val_main_v76 (F := Ideal) x7) := by
  funext i
  obtain ⟨r, j, rfl⟩ : ∃ (r : Fin 100000) (j : Fin 128), i = ix2 r j := ⟨i 0, i 1, eq_ix2 i⟩
  -- the row's sum of squares is read at (r, 0) of the column it is spread into, then along the features
  have hsum : ∀ k : Fin 128, idx_main_call2_v1 (idx_main_call2_v2 (idx_main_v82 (ix2 r j))) k = ix2 r k := fun k =>
    funext fun a => Fin.ext (by match a with | ⟨0, _⟩ => rfl | ⟨1, _⟩ => rfl)
  -- the element (r, j): the linear stage over the floored root of the row's sum of squares from zero
  rw [val_main_v83_apply, val_main_v82_apply, val_main_v81_apply, val_main_v79_apply, val_main_call2_v2_apply,
    val_main_call2_v1_apply, val_main_call2_cst_apply, val_main_v80_apply, val_main_cst_12_apply, sageArr_apply]
  simp only [hsum, ref_sq, ref_lin, Ideal.hostDivf_def, Ideal.hostUnary_sqrt_def, Ideal.maximumf_def, Ideal.ofBits_def,
    Ideal.ofBits_zero_f32, zero_add]
  rfl

end Cert.ReferenceIdeal.RefResult

end
-- ==== Proof.HostChain.lean ====
/-
  What the two kernel regions find in their arrays, and where the result ends up.

  Before the first region the host only reshapes four per-feature vectors into [1, 128] rows; the input array is
  untouched.  Between the regions the host splits the edge list into its two rows, fetches the rows of the first
  region's output at the wrapped source indices (keeping a row only where the wrapped index is in range), sums
  them per target node, divides by the floored edge count, transposes the two weight matrices and reshapes the
  bias; the first region's output array itself is untouched.  The program's result is the second region's output
  array.
-/
import proofs.«404688_j43593918054550_1_alg».proof.Proof.Gen.KernelIdeal.Frame
import proofs.«404688_j43593918054550_1_alg».proof.Proof.Neighbours
import Idealize.ShloMosaic.Lib.StableHlo.Run
import Idealize.ShloMosaic.Lib.Pipeline.Value
import Idealize.ShloMosaic.Lib.ValueIdx

set_option maxRecDepth 16384

noncomputable section

namespace Cert.KernelIdeal.HostChain

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ) (ρ : Dev nD → PrngReg)

/-! ## The first region's arrays -/

/-- The first region finds the input array as launched. -/
theorem entry1_x (c : Dev nD) : V1 m ρ c main_arg0 = m ((c : Thread nD τ).loc main_arg0) := by
  show StableHlo.after hostOps0 (W0 m ρ c) (Proc.devRef .tc main_arg0) = _
  after_results

/-- … and the mean, variance, scale and shift vectors reshaped into rows. -/
theorem entry1_mean (c : Dev nD) :
    V1 m ρ c main_v0 = shapeCast S1x128 (m ((c : Thread nD τ).loc main_arg10)) Facts₀.shapeCasts_S128_S1x128 := by
  show StableHlo.after hostOps0 (W0 m ρ c) (Proc.devRef .tc main_v0) = _
  after_results; rfl

theorem entry1_var (c : Dev nD) :
    V1 m ρ c main_v1 = shapeCast S1x128 (m ((c : Thread nD τ).loc main_arg11)) Facts₀.shapeCasts_S128_S1x128 := by
  show StableHlo.after hostOps0 (W0 m ρ c) (Proc.devRef .tc main_v1) = _
  after_results; rfl

theorem entry1_gamma (c : Dev nD) :
    V1 m ρ c main_v2 = shapeCast S1x128 (m ((c : Thread nD τ).loc main_arg8)) Facts₀.shapeCasts_S128_S1x128 := by
  show StableHlo.after hostOps0 (W0 m ρ c) (Proc.devRef .tc main_v2) = _
  after_results; rfl

theorem entry1_beta (c : Dev nD) :
    V1 m ρ c main_v3 = shapeCast S1x128 (m ((c : Thread nD τ).loc main_arg9)) Facts₀.shapeCasts_S128_S1x128 := by
  show StableHlo.after hostOps0 (W0 m ρ c) (Proc.devRef .tc main_v3) = _
  after_results; rfl

/-- A vector reshaped into a one-row matrix, read in that row. -/
theorem reshape_row (x : FVec F S128 .f32) (j : Fin 128) :
    shapeCast S1x128 x Facts₀.shapeCasts_S128_S1x128 (ix2 0 j) = x (ix1 j) := by
  refine (shapeCast_addUnit_apply (n := 1) ![128] x Facts₀.shapeCasts_S128_S1x128 (ix2 0 j)).trans ?_
  refine congrArg x (funext fun a => ?_)
  match a with
  | ⟨0, _⟩ => rfl

/-! ## The second region's arrays -/

/-- Region one does not touch an array that is none of its six: the edge list, the weights, the bias. -/
theorem W2_arg (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

theorem W2_edges (c : Dev nD) : W2 m ρ c (Proc.devRef .tc main_arg1) = m ((c : Thread nD τ).loc main_arg1) :=
  W2_arg m ρ c main_arg1 (by decide) (by after_results)

theorem W2_wl (c : Dev nD) : W2 m ρ c (Proc.devRef .tc main_arg5) = m ((c : Thread nD τ).loc main_arg5) :=
  W2_arg m ρ c main_arg5 (by decide) (by after_results)

theorem W2_bias (c : Dev nD) : W2 m ρ c (Proc.devRef .tc main_arg6) = m ((c : Thread nD τ).loc main_arg6) :=
  W2_arg m ρ c main_arg6 (by decide) (by after_results)

theorem W2_wr (c : Dev nD) : W2 m ρ c (Proc.devRef .tc main_arg7) = m ((c : Thread nD τ).loc main_arg7) :=
  W2_arg m ρ c main_arg7 (by decide) (by after_results)

/-- The first region's output array as that region leaves it. -/
theorem W2_h (c : Dev nD) : W2 m ρ c (Proc.devRef .tc main_v4) = (dat0 (V1 m ρ) c).arrAt 5 cfg0.N :=
  W2_arr m ρ c 5

/-- The second region finds the first region's output array as that region left it: the host operations between
    the two write other buffers. -/
theorem entry2_h (c : Dev nD) : V5 m ρ c main_v4 = (dat0 (V1 m ρ) c).arrAt 5 cfg0.N := by
  show StableHlo.after hostOps1_2 (StableHlo.after hostOps1_1 (StableHlo.after hostOps1 (W2 m ρ c))) (Proc.devRef .tc main_v4) = _
  after_results
  exact W2_h m ρ c

/-! ### The three stretches between the regions, each from arbitrary contents `X`

The neighbourhood functions as functions of the source column `s` and the target column `d` of the edge list
(the edge list enters only through its two rows). -/

/-- A source column wrapped: a negative index moved up by the number of nodes. -/
def wrappedC (s : IVec S600000 32) : IVec S600000 32 :=
  select (cmpi .slt s (broadcastInDim S600000 ![] Facts₀.bcast_S_S600000 (constantI S_ 32 0#32)))
    (addi s (broadcastInDim S600000 ![] Facts₀.bcast_S_S600000 (constantI S_ 32 100000#32))) s

/-- The wrapped column as a column of start indices. -/
def startIdxC (s : IVec S600000 32) : IVec S600000x1 32 :=
  broadcastInDim S600000x1 ![0] Facts₀.bcast_S600000_S600000x1_0 (wrappedC s)

/-- The range test 0 ≤ w ≤ 99999 of the wrapped column, per edge. -/
def inRangeC (s : IVec S600000 32) : IVec S600000 1 :=
  Host.reduce IntOp.andi
    (andi (cmpi .sge (startIdxC s) (broadcastInDim S600000x1 ![] Facts₀.bcast_S_S600000x1 (constantI S_ 32 0#32)))
      (cmpi .sle (startIdxC s) (broadcastInDim S600000x1 ![0, 1] Facts₀.bcast_S1x1_S600000x1_0_1
        (broadcastInDim S1x1 ![1] Facts₀.bcast_S1_S1x1_1 (constantI S1 32 99999#32)))))
    (constantI S_ 1 1#1) Facts₀.reducesTo_S600000x1_S600000_d1 Facts₀.h_S_

/-- The rows fetched under the range test, from the source column. -/
def rowsGuardedC (h : FVec F S100000x128 .f32) (s : IVec S600000 32) : FVec F S600000x128 .f32 :=
  select (broadcastInDim S600000x128 ![0] Facts₀.bcast_S600000_S600000x128_0 (inRangeC s))
    (Host.gather gather_S100000x128_S600000x1_S600000x128_1_0_n_n_0_1_1128 h (startIdxC s))
    (broadcastInDim S600000x128 ![] Facts₀.bcast_S_S600000x128 (constant S_ .f32 0x7FC00000#32))

/-- The mean per target node of one row per edge, from the target column. -/
def meanOfC (u : FVec F S600000x128 .f32) (d : IVec S600000 32) : FVec F S100000x128 .f32 :=
  Host.divf
    (Host.scatterAdd scatter_S100000x128_S600000x1_S600000x128_1_0_0_1
      (broadcastInDim S100000x128 ![] Facts₀.bcast_S_S100000x128 (constant S_ .f32 0x00000000#32))
      (broadcastInDim S600000x1 ![0] Facts₀.bcast_S600000_S600000x1_0 d) u)
    (broadcastInDim S100000x128 ![0, 1] Facts₀.bcast_S100000x1_S100000x128_0_1
      (broadcastInDim S100000x1 ![0] Facts₀.bcast_S100000_S100000x1_0
        (maximumf
          (Host.scatterAdd scatter_S100000_S600000x1_S600000_n_0_0_1
            (broadcastInDim S100000 ![] Facts₀.bcast_S_S100000 (constant S_ .f32 0x00000000#32))
            (broadcastInDim S600000x1 ![0] Facts₀.bcast_S600000_S600000x1_0 d)
            (broadcastInDim S600000 ![] Facts₀.bcast_S_S600000 (constant S_ .f32 0x3F800000#32)))
          (broadcastInDim S100000 ![] Facts₀.bcast_S_S100000 (constant S_ .f32 0x3F800000#32)))))

/-- They are the edge-list functions at the edge list's two rows. -/
theorem rowsGuarded_eq_C (h : FVec F S100000x128 .f32) (e : IVec S2x600000 32) :
    Cert.Neighbours.rowsGuarded h e = rowsGuardedC h (Cert.Neighbours.src e) := rfl

theorem meanOf_eq_C (u : FVec F S600000x128 .f32) (e : IVec S2x600000 32) :
    Cert.Neighbours.meanOf u e = meanOfC u (Cert.Neighbours.dst e) := rfl

section Stretches
variable (X : Valuation τ sig (Elt F))

/-- The middle stretch (the row fetch) writes the fetched rows, a function of the feature array and the source
    column it finds. -/
theorem fetch_rows :
    StableHlo.after hostOps1_1 X (Proc.devRef .tc main_v9)
      = rowsGuardedC (X (Proc.devRef .tc main_v4)) (X (Proc.devRef .tc main_v6)) := by
  after_results_simp
  simp only [StableHlo.TRef.ofBuf, StableHlo.TRef.toBuf, cast_cast, cast_eq]
  rfl

/-- … and leaves the target column alone. -/
theorem fetch_keeps_dst : StableHlo.after hostOps1_1 X (Proc.devRef .tc main_v8) = X (Proc.devRef .tc main_v8) := by
  after_results_simp

/-- The first stretch splits the edge list into its source and target columns and leaves the feature array
    alone. -/
theorem split_src :
    StableHlo.after hostOps1 X (Proc.devRef .tc main_v6) = Cert.Neighbours.src (X (Proc.devRef .tc main_arg1)) := by
  after_results; rfl

theorem split_dst :
    StableHlo.after hostOps1 X (Proc.devRef .tc main_v8) = Cert.Neighbours.dst (X (Proc.devRef .tc main_arg1)) := by
  after_results; rfl

theorem split_keeps_h : StableHlo.after hostOps1 X (Proc.devRef .tc main_v4) = X (Proc.devRef .tc main_v4) := by
  after_results

/-- The last stretch averages the fetched rows per target node. -/
theorem mean_of_rows :
    StableHlo.after hostOps1_2 X (Proc.devRef .tc main_v21)
      = meanOfC (X (Proc.devRef .tc main_v9)) (X (Proc.devRef .tc main_v8)) := by
  after_results_simp
  rfl

end Stretches

/-- … the neighbourhood means of that array over the launched edge list, the rows fetched under the range test; -/
theorem entry2_mean (c : Dev nD) :
    (V5 m ρ c main_v21 : FVec F S100000x128 .f32)
      = Cert.Neighbours.meanOf (Cert.Neighbours.rowsGuarded ((dat0 (V1 m ρ) c).arrAt 5 cfg0.N : FVec F S100000x128 .f32)
          (m ((c : Thread nD τ).loc main_arg1))) (m ((c : Thread nD τ).loc main_arg1)) := by
  show StableHlo.after hostOps1_2 (W4 m ρ c) (Proc.devRef .tc main_v21) = _
  rw [mean_of_rows]
  show meanOfC (StableHlo.after hostOps1_1 (W3 m ρ c) (Proc.devRef .tc main_v9))
      (StableHlo.after hostOps1_1 (W3 m ρ c) (Proc.devRef .tc main_v8)) = _
  rw [fetch_rows, fetch_keeps_dst]
  show meanOfC (rowsGuardedC (StableHlo.after hostOps1 (W2 m ρ c) (Proc.devRef .tc main_v4))
        (StableHlo.after hostOps1 (W2 m ρ c) (Proc.devRef .tc main_v6)))
      (StableHlo.after hostOps1 (W2 m ρ c) (Proc.devRef .tc main_v8)) = _
  rw [split_keeps_h, split_src, split_dst, W2_h m ρ c, W2_edges m ρ c, meanOf_eq_C, rowsGuarded_eq_C]

/-- … the two weight matrices transposed; -/
theorem entry2_wl (c : Dev nD) :
    V5 m ρ c main_v22 = transpose S128x128 [1, 0] (m ((c : Thread nD τ).loc main_arg5)) Facts₀.transposes_S128x128_S128x128_1_0 := by
  show StableHlo.after hostOps1_2 (StableHlo.after hostOps1_1 (StableHlo.after hostOps1 (W2 m ρ c))) (Proc.devRef .tc main_v22) = _
  after_results
  rw [W2_wl m ρ c]

theorem entry2_wr (c : Dev nD) :
    V5 m ρ c main_v23 = transpose S128x128 [1, 0] (m ((c : Thread nD τ).loc main_arg7)) Facts₀.transposes_S128x128_S128x128_1_0 := by
  show StableHlo.after hostOps1_2 (StableHlo.after hostOps1_1 (StableHlo.after hostOps1 (W2 m ρ c))) (Proc.devRef .tc main_v23) = _
  after_results
  rw [W2_wr m ρ c]

/-- … and the bias vector reshaped into a row. -/
theorem entry2_bias (c : Dev nD) :
    V5 m ρ c main_v24 = shapeCast S1x128 (m ((c : Thread nD τ).loc main_arg6)) Facts₀.shapeCasts_S128_S1x128 := by
  show StableHlo.after hostOps1_2 (StableHlo.after hostOps1_1 (StableHlo.after hostOps1 (W2 m ρ c))) (Proc.devRef .tc main_v24) = _
  after_results
  rw [W2_bias m ρ c]
  rfl

/-! ## The result -/

/-- The program's result is the second region's output array as that region leaves it. -/
theorem result_eq (c : Dev nD) : W6 m ρ c (Proc.devRef .tc main_v25) = (dat1 (V5 m ρ) c).arrAt 5 cfg1.N :=
  W6_arr m ρ c 5

end Cert.KernelIdeal.HostChain

end
-- ==== Proof.Bridge.lean ====
/-
  The two programs compute one function.

  Kernel side: the result is the second region's output array; that array is stage two of the specification of
  what the region found — the first region's output array (stage one of the launched input and per-feature vectors),
  its neighbourhood means over the launched edge list, the transposed weight matrices, the bias —; and under the
  precondition every source index lies in −100000 … 99999, so the range-tested row fetch of the kernel's program is
  the plain fetch.  Reference side: the same two stages and the same neighbourhood mean, read off its host
  operations.  With the argument arrays agreeing the two result arrays are one term.
-/
import proofs.«404688_j43593918054550_1_alg».proof.Proof.Spec
import proofs.«404688_j43593918054550_1_alg».proof.Proof.Neighbours
import proofs.«404688_j43593918054550_1_alg».proof.Proof.KRegion0
import proofs.«404688_j43593918054550_1_alg».proof.Proof.KRegion1
import proofs.«404688_j43593918054550_1_alg».proof.Proof.RefResult
import proofs.«404688_j43593918054550_1_alg».proof.Proof.HostChain

set_option maxRecDepth 16384

noncomputable section

namespace Cert.Bridge

open Idealize.ShloMosaic Idealize.ShloMosaic.TcCoe Idealize.ShloMosaic.ValueIdx Idealize.SL.Sem
open Cert.SageSpec

section Kernel
open Cert.KernelIdeal Cert.KernelIdeal.Gen

variable (m : (ℓ : Loc nD τ sig) → Buf (Elt Ideal) ℓ) (ρ : Dev nD → PrngReg)

/-- The normalised features as the kernel's program has them: stage one of the launched arrays. -/
def feats (c : Dev nD) : Nodes.Idx → EReal :=
  bnArr (m ((c : Thread nD τ).loc main_arg0)) (m ((c : Thread nD τ).loc main_arg10)) (m ((c : Thread nD τ).loc main_arg11))
    (m ((c : Thread nD τ).loc main_arg8)) (m ((c : Thread nD τ).loc main_arg9))

/-- The first region's output array is stage one of the launched input and per-feature vectors. -/
theorem region0_result (c : Dev nD) : (dat0 (F := Ideal) (V1 m ρ) c).arrAt 5 cfg0.N = feats m c := by
  have h := Cert.KernelIdeal.Region0.region0_value (V1 m ρ) c
    (m ((c : Thread nD τ).loc main_arg10)) (m ((c : Thread nD τ).loc main_arg11))
    (m ((c : Thread nD τ).loc main_arg8)) (m ((c : Thread nD τ).loc main_arg9))
    (fun j => by rw [HostChain.entry1_mean]; exact HostChain.reshape_row (F := Ideal) (m ((c : Thread nD τ).loc main_arg10)) j)
    (fun j => by rw [HostChain.entry1_var]; exact HostChain.reshape_row (F := Ideal) (m ((c : Thread nD τ).loc main_arg11)) j)
    (fun j => by rw [HostChain.entry1_gamma]; exact HostChain.reshape_row (F := Ideal) (m ((c : Thread nD τ).loc main_arg8)) j)
    (fun j => by rw [HostChain.entry1_beta]; exact HostChain.reshape_row (F := Ideal) (m ((c : Thread nD τ).loc main_arg9)) j)
  rw [h, HostChain.entry1_x]
  rfl

/-- THE KERNEL PROGRAM'S RESULT under the precondition: stage two of the normalised features, their neighbourhood
    means (rows fetched plainly), the transposed weights and the bias. -/
theorem kernel_result (hpre : Cert.Pre_KernelIdeal m) (c : Dev nD) :
    W6 m ρ c (Proc.devRef .tc main_v25)
      = sageArr (feats m c)
          (Cert.Neighbours.meanOf (F := Ideal) (Cert.Neighbours.rows (F := Ideal) (feats m c) (m ((c : Thread nD τ).loc main_arg1)))
            (m ((c : Thread nD τ).loc main_arg1)))
          (transpose S128x128 [1, 0] (m ((c : Thread nD τ).loc main_arg5)) Facts₀.transposes_S128x128_S128x128_1_0)
          (m ((c : Thread nD τ).loc main_arg6))
          (transpose S128x128 [1, 0] (m ((c : Thread nD τ).loc main_arg7)) Facts₀.transposes_S128x128_S128x128_1_0) := by
  rw [HostChain.result_eq,
    Cert.KernelIdeal.Region1.region1_value (V5 m ρ) c (m ((c : Thread nD τ).loc main_arg6))
      (fun j => by rw [HostChain.entry2_bias]; exact HostChain.reshape_row (F := Ideal) (m ((c : Thread nD τ).loc main_arg6)) j),
    HostChain.entry2_h, HostChain.entry2_mean, HostChain.entry2_wl, HostChain.entry2_wr, region0_result,
    Cert.Neighbours.rowsGuarded_eq_rows _ _ (Cert.Neighbours.srcInRange_of_pre m hpre c)]

end Kernel

section Reference
open Cert.ReferenceIdeal.Read Cert.ReferenceIdeal.RefResult

/-- THE REFERENCE'S RESULT: the same two stages and the same neighbourhood mean, of its own argument arrays. -/
theorem reference_result
    (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v83 m' c
      = sageArr
          (bnArr (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg10))
            (m' ((c.tc : Thread Cert.ReferenceIdeal.nD Cert.ReferenceIdeal.τ).loc Cert.ReferenceIdeal.main_arg11))
            (m' ((c.tc : Thread Cert.ReferenceIdeal.nD Cert.ReferenceIdeal.τ).loc Cert.ReferenceIdeal.main_arg8))
            (m' ((c.tc : Thread Cert.ReferenceIdeal.nD Cert.ReferenceIdeal.τ).loc Cert.ReferenceIdeal.main_arg9)))
          (Cert.Neighbours.meanOf (F := Ideal)
            (Cert.Neighbours.rows (F := Ideal)
              (bnArr (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg10))
                (m' ((c.tc : Thread Cert.ReferenceIdeal.nD Cert.ReferenceIdeal.τ).loc Cert.ReferenceIdeal.main_arg11))
                (m' ((c.tc : Thread Cert.ReferenceIdeal.nD Cert.ReferenceIdeal.τ).loc Cert.ReferenceIdeal.main_arg8))
                (m' ((c.tc : Thread Cert.ReferenceIdeal.nD Cert.ReferenceIdeal.τ).loc Cert.ReferenceIdeal.main_arg9)))
              (m' ((c.tc : Thread Cert.ReferenceIdeal.nD Cert.ReferenceIdeal.τ).loc Cert.ReferenceIdeal.main_arg1)))
            (m' ((c.tc : Thread Cert.ReferenceIdeal.nD Cert.ReferenceIdeal.τ).loc Cert.ReferenceIdeal.main_arg1)))
          (val_main_v71 (F := Ideal) (m' ((c.tc : Thread Cert.ReferenceIdeal.nD Cert.ReferenceIdeal.τ).loc Cert.ReferenceIdeal.main_arg5)))
          (m' ((c.tc : Thread Cert.ReferenceIdeal.nD Cert.ReferenceIdeal.τ).loc Cert.ReferenceIdeal.main_arg6))
          (val_main_v76 (F := Ideal) (m' ((c.tc : Thread Cert.ReferenceIdeal.nD Cert.ReferenceIdeal.τ).loc Cert.ReferenceIdeal.main_arg7))) := by
  rw [val_main_v83_eq, ref_sage, ref_mean, ref_bn]

end Reference

/-- THE TWO RESULTS AGREE: from memories that agree on the twelve arguments, under the precondition, the
    reference's result array is the kernel program's. -/
theorem results_agree
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v83 m' c
      = Cert.KernelIdeal.Gen.W6 m ρ c (Proc.devRef .tc Cert.KernelIdeal.main_v25) := by
  rw [reference_result m' c, kernel_result m ρ hpre c, h0, h1, h5, h6, h7, h8, h9, h10, h11]
  rfl

end Cert.Bridge

end
-- ==== Proof.lean ====
/-
  The certificate of a two-layer neighbourhood-averaging network's second layer (the first layer's output is never
  used), computed by a program of two kernel regions around host operations, against its reference on the host.

  Over the extended reals both compute, for every node r and feature j,
      o[r,j] / max(√(∑_q o[r,q]²), ε'),   o[r,·] = (∑ₖ a[r,k]·Wl[·,k] + b) + ∑ₖ h[r,k]·Wr[·,k],
  where h is the evaluation-mode batch normalisation of the rectified input and a[r,·] is the mean of h over the
  sources of the edges that end at r.  The kernel's regions compute h (first region) and the row-normalised
  projections (second region) block by block, 5000 nodes a block; the narrowing of the second region's operands to a
  shorter float format is the identity over the extended reals, and a product into a zero accumulator is the plain
  sum.  The host operations between the regions are the reference's own, except that the kernel's program fetches a
  source row only where the wrapped source index is in range: the precondition (every source index in
  −100000 … 99999, beside the finiteness of the float inputs) makes that test hold on every edge.  No algebraic law
  beyond 0 + x = x is used, and the finiteness of the inputs is not needed.
  The three frames: the two kernel programs' are the generated frame certificates; the reference's is its generated
  run with the result dropped.  The idealization rewrote no operation, so nothing is to preserve.
-/
import proofs.«404688_j43593918054550_1_alg».proof.Defs
import proofs.«404688_j43593918054550_1_alg».proof.Proof.Gen.Kernel
import proofs.«404688_j43593918054550_1_alg».proof.Proof.Gen.Kernel.Skeleton
import proofs.«404688_j43593918054550_1_alg».proof.Proof.Gen.Kernel.Launch
import proofs.«404688_j43593918054550_1_alg».proof.Proof.Gen.Kernel.Points
import proofs.«404688_j43593918054550_1_alg».proof.Proof.Gen.Kernel.Frame
import proofs.«404688_j43593918054550_1_alg».proof.Proof.Gen.KernelIdeal
import proofs.«404688_j43593918054550_1_alg».proof.Proof.Gen.KernelIdeal.Skeleton
import proofs.«404688_j43593918054550_1_alg».proof.Proof.Gen.KernelIdeal.Launch
import proofs.«404688_j43593918054550_1_alg».proof.Proof.Gen.KernelIdeal.Points
import proofs.«404688_j43593918054550_1_alg».proof.Proof.Gen.KernelIdeal.Frame
import proofs.«404688_j43593918054550_1_alg».proof.Proof.Gen.ReferenceIdeal
import proofs.«404688_j43593918054550_1_alg».proof.Proof.Gen.ReferenceIdeal.Run
import proofs.«404688_j43593918054550_1_alg».proof.Proof.Gen.Pre_finite_inputs
import proofs.«404688_j43593918054550_1_alg».proof.Proof.KernelRun
import proofs.«404688_j43593918054550_1_alg».proof.Proof.Bridge
import Idealize.ShloMosaic.Adequacy
import Idealize.ShloMosaic.Init

noncomputable section

namespace Cert.Proof

open Idealize.ShloMosaic Idealize.SL.Sem

/-- The kernel's program as printed runs and leaves its arguments: the generated frame certificate. -/
theorem frame_k : Cert.frame_Kernel := fun m ρ _ => Cert.Kernel.Gen.frame m ρ

/-- … and so does the same program read over the extended reals. -/
theorem frame_ki : Cert.frame_KernelIdeal := fun m ρ _ => Cert.KernelIdeal.Gen.frame m ρ

/-- The reference runs and leaves its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same result array: the kernel's at its run's last contents, the reference's at
    its composed term, which is that array (`Cert.Bridge.results_agree`). -/
theorem algebraic : Cert.algebraic_KernelIdeal_ReferenceIdeal := by
  intro m ρ m' ρ' hpre hagree
  refine ⟨fun c => Cert.KernelIdeal.Gen.W6 m ρ c (Proc.devRef .tc Cert.KernelIdeal.main_v25),
    Cert.KernelIdeal.Run.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, -, -, a5, a6, a7, a8, a9, a10, a11⟩ := hagree c
  exact Cert.Bridge.results_agree m ρ m' hpre c a0 a1 a5 a6 a7 a8 a9 a10 a11

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
